-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x512x512 : Shape := ⟨4, ![64, 1, 512, 512]⟩
abbrev S_ : Shape := ⟨0, ![]⟩

class Facts : Prop where
  bcast_S_S64x1x512x512 : S_.BroadcastsInDim S64x1x512x512 (![] : Fin 0 → Fin S64x1x512x512.rank)
  reducesTo_S64x1x512x512_S_d0_1_2_3 : S64x1x512x512.ReducesTo [0, 1, 2, 3] S_
  h_S_ : 0 < S_.numel

variable [Facts]

def fn {F : FTy → Type} [FloatOps F] (main_arg0 : FVec F S64x1x512x512 .f32) (main_arg1 : FVec F S64x1x512x512 .f32) : IVec S_ 1 :=
  let main_v0 : FVec F S64x1x512x512 .f32 := Host.absf main_arg0
  let main_cst : FVec F S_ .f32 := constant S_ .f32 0x7F800000#32
  let main_v1 : FVec F S64x1x512x512 .f32 := broadcastInDim S64x1x512x512 ![] bcast_S_S64x1x512x512 main_cst
  let main_v2 : IVec S64x1x512x512 1 := cmpf .olt main_v0 main_v1
  let main_c : IVec S_ 1 := constantI S_ 1 1#1
  let main_v3 : IVec S_ 1 := (fun x v => Host.reduce IntOp.andi x v reducesTo_S64x1x512x512_S_d0_1_2_3 h_S_) main_v2 main_c
  let main_v4 : FVec F S64x1x512x512 .f32 := Host.absf main_arg1
  let main_cst_0 : FVec F S_ .f32 := constant S_ .f32 0x7F800000#32
  let main_v5 : FVec F S64x1x512x512 .f32 := broadcastInDim S64x1x512x512 ![] bcast_S_S64x1x512x512 main_cst_0
  let main_v6 : IVec S64x1x512x512 1 := cmpf .olt main_v4 main_v5
  let main_c_1 : IVec S_ 1 := constantI S_ 1 1#1
  let main_v7 : IVec S_ 1 := (fun x v => Host.reduce IntOp.andi x v reducesTo_S64x1x512x512_S_d0_1_2_3 h_S_) main_v6 main_c_1
  let main_v8 : IVec S_ 1 := andi main_v3 main_v7
  main_v8
-- ==== Kernel.lean ====
abbrev S64x1x512x512 : Shape := ⟨4, ![64, 1, 512, 512]⟩
abbrev S32768x512 : Shape := ⟨2, ![32768, 512]⟩
abbrev S16x8x128 : Shape := ⟨3, ![16, 8, 128]⟩
abbrev S2048x512 : Shape := ⟨2, ![2048, 512]⟩
abbrev S1x8x128 : Shape := ⟨3, ![1, 8, 128]⟩
abbrev S2048 : Shape := ⟨1, ![2048]⟩
abbrev S2048x1 : Shape := ⟨2, ![2048, 1]⟩
abbrev S1 : Shape := ⟨1, ![1]⟩
abbrev S1x1 : Shape := ⟨2, ![1, 1]⟩
abbrev S16x1x1 : Shape := ⟨3, ![16, 1, 1]⟩
abbrev S16 : Shape := ⟨1, ![16]⟩
abbrev S_ : Shape := ⟨0, ![]⟩

abbrev nBuf : Space → Nat
  | .hbm => 11
  | .vmem => 6
  | .smem => 0
  | _ => 0

abbrev bufTy : (tb : Table) → Fin (tcTables nBuf tb) → BufTy
  | .hbm, ⟨0, _⟩ => ⟨S64x1x512x512, .f32⟩
  | .hbm, ⟨1, _⟩ => ⟨S64x1x512x512, .f32⟩
  | .hbm, ⟨2, _⟩ => ⟨S32768x512, .f32⟩
  | .hbm, ⟨3, _⟩ => ⟨S32768x512, .f32⟩
  | .hbm, ⟨4, _⟩ => ⟨S16x8x128, .f32⟩
  | .hbm, ⟨5, _⟩ => ⟨S16x1x1, .f32⟩
  | .hbm, ⟨6, _⟩ => ⟨S16, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S1x8x128, .f32⟩
  | .local _ .vmem, ⟨5, _⟩ => ⟨S1x8x128, .f32⟩
  | _, _ => ⟨S64x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S64x1x512x512_S32768x512 : S64x1x512x512.ShapeCasts S32768x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  iota_S2048x512_d1_w32 : S2048x512.Iotas .tc 32 [1]
  rotates_S2048x512_d1 : S2048x512.Rotates 1 none
  reduces_S2048x512_S2048 : S2048x512.Reduces [1] S2048
  shapeCasts_S2048_S2048x1 : S2048.ShapeCasts S2048x1
  reduces_S2048x1_S1 : S2048x1.Reduces [0] S1
  shapeCasts_S1_S1x1 : S1.ShapeCasts S1x1
  inpos_S1x1_p0_0 : ∀ a, (![0, 0] : Fin 2 → Nat) a < S1x1.size a
  inb_S1x8x128_S1x8x128_0_0_0 : ∀ a, (![0, 0, 0] : Fin 3 → Nat) a + S1x8x128.size a ≤ S1x8x128.size a
  h_S1x8x128 : 0 < S1x8x128.numel
  slices_S16x8x128_S16x1x1_0_0_0 : S16x8x128.Slices ![0, 0, 0] S16x1x1
  shapeCasts_S16x1x1_S16 : S16x1x1.ShapeCasts S16
  reducesTo_S16_S_d0 : S16.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S32768x512.size a
  hwx0_0 : ∀ i : grid0.Coords, EltTy.bits .f32 = 32 ∨ (Rect.block (s := S32768x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S32768x512.size a
  hwx0_1 : ∀ i : grid0.Coords, EltTy.bits .f32 = 32 ∨ (Rect.block (s := S32768x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S16x8x128.size a
  hwx0_2 : ∀ i : grid0.Coords, EltTy.bits .f32 = 32 ∨ (Rect.block (s := S16x8x128) S1x8x128.size (cc0_transform_2 i) (hinb0_2 i)).WholeWords (EltTy.packing .f32)

variable [Facts₀]

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x1x512x512 : Shape := ⟨4, ![64, 1, 512, 512]⟩
abbrev S512 : Shape := ⟨1, ![512]⟩
abbrev S_ : Shape := ⟨0, ![]⟩
abbrev S1x1x1x512 : Shape := ⟨4, ![1, 1, 1, 512]⟩
abbrev S64x1x512x1 : Shape := ⟨4, ![64, 1, 512, 1]⟩
abbrev S64x1x512x511 : Shape := ⟨4, ![64, 1, 512, 511]⟩

abbrev nBuf : Space → Nat
  | .hbm => 56
  | .vmem => 0
  | .smem => 0
  | _ => 0

abbrev bufTy : (tb : Table) → Fin (tcTables nBuf tb) → BufTy
  | .hbm, ⟨0, _⟩ => ⟨S64x1x512x512, .f32⟩
  | .hbm, ⟨1, _⟩ => ⟨S64x1x512x512, .f32⟩
  | .hbm, ⟨2, _⟩ => ⟨S512, .i32⟩
  | .hbm, ⟨3, _⟩ => ⟨S_, .f32⟩
  | .hbm, ⟨4, _⟩ => ⟨S64x1x512x512, .f32⟩
  | .hbm, ⟨5, _⟩ => ⟨S64x1x512x512, .i1⟩
  | .hbm, ⟨6, _⟩ => ⟨S_, .i32⟩
  | .hbm, ⟨7, _⟩ => ⟨S512, .i32⟩
  | .hbm, ⟨8, _⟩ => ⟨S512, .i1⟩
  | .hbm, ⟨9, _⟩ => ⟨S1x1x1x512, .i1⟩
  | .hbm, ⟨10, _⟩ => ⟨S64x1x512x512, .i1⟩
  | .hbm, ⟨11, _⟩ => ⟨S64x1x512x512, .i1⟩
  | .hbm, ⟨12, _⟩ => ⟨S_, .f32⟩
  | .hbm, ⟨13, _⟩ => ⟨S_, .f32⟩
  | .hbm, ⟨14, _⟩ => ⟨S64x1x512x512, .f32⟩
  | .hbm, ⟨15, _⟩ => ⟨S64x1x512x512, .f32⟩
  | .hbm, ⟨16, _⟩ => ⟨S_, .f32⟩
  | .hbm, ⟨17, _⟩ => ⟨S64x1x512x1, .f32⟩
  | .hbm, ⟨18, _⟩ => ⟨S64x1x512x511, .f32⟩
  | .hbm, ⟨19, _⟩ => ⟨S64x1x512x512, .f32⟩
  | .hbm, ⟨20, _⟩ => ⟨S_, .f32⟩
  | .hbm, ⟨21, _⟩ => ⟨S64x1x512x512, .f32⟩
  | .hbm, ⟨22, _⟩ => ⟨S64x1x512x512, .i1⟩
  | .hbm, ⟨23, _⟩ => ⟨S64x1x512x512, .f32⟩
  | .hbm, ⟨24, _⟩ => ⟨S_, .f32⟩
  | .hbm, ⟨25, _⟩ => ⟨S64x1x512x512, .f32⟩
  | .hbm, ⟨26, _⟩ => ⟨S64x1x512x512, .i1⟩
  | .hbm, ⟨27, _⟩ => ⟨S64x1x512x512, .f32⟩
  | .hbm, ⟨28, _⟩ => ⟨S_, .f32⟩
  | .hbm, ⟨29, _⟩ => ⟨S64x1x512x1, .f32⟩
  | .hbm, ⟨30, _⟩ => ⟨S64x1x512x511, .f32⟩
  | .hbm, ⟨31, _⟩ => ⟨S64x1x512x512, .f32⟩
  | .hbm, ⟨32, _⟩ => ⟨S_, .f32⟩
  | .hbm, ⟨33, _⟩ => ⟨S64x1x512x512, .f32⟩
  | .hbm, ⟨34, _⟩ => ⟨S64x1x512x512, .i1⟩
  | .hbm, ⟨35, _⟩ => ⟨S64x1x512x512, .f32⟩
  | .hbm, ⟨36, _⟩ => ⟨S64x1x512x512, .f32⟩
  | .hbm, ⟨37, _⟩ => ⟨S64x1x512x512, .f32⟩
  | .hbm, ⟨38, _⟩ => ⟨S64x1x512x512, .f32⟩
  | .hbm, ⟨39, _⟩ => ⟨S64x1x512x512, .f32⟩
  | .hbm, ⟨40, _⟩ => ⟨S64x1x512x512, .f32⟩
  | .hbm, ⟨41, _⟩ => ⟨S_, .f32⟩
  | .hbm, ⟨42, _⟩ => ⟨S64x1x512x512, .f32⟩
  | .hbm, ⟨43, _⟩ => ⟨S64x1x512x512, .f32⟩
  | .hbm, ⟨44, _⟩ => ⟨S64x1x512x512, .f32⟩
  | .hbm, ⟨45, _⟩ => ⟨S_, .f32⟩
  | .hbm, ⟨46, _⟩ => ⟨S64x1x512x512, .f32⟩
  | .hbm, ⟨47, _⟩ => ⟨S64x1x512x512, .i1⟩
  | .hbm, ⟨48, _⟩ => ⟨S_, .f32⟩
  | .hbm, ⟨49, _⟩ => ⟨S64x1x512x512, .f32⟩
  | .hbm, ⟨50, _⟩ => ⟨S64x1x512x512, .f32⟩
  | .hbm, ⟨51, _⟩ => ⟨S64x1x512x512, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | _, _ => ⟨S64x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_cst_10 : Ref sig .tc := ⟨.hbm, 54, rfl⟩
abbrev main_v38 : Ref sig .tc := ⟨.hbm, 55, rfl⟩

abbrev nD : Nat := 1
abbrev τ : Topo := Topo.v7x

variable {F : FTy → Type} [FloatOps F]

class Facts₀ : Prop where
  bcast_S_S64x1x512x512 : S_.BroadcastsInDim S64x1x512x512 (![] : Fin 0 → Fin S64x1x512x512.rank)
  bcast_S_S512 : S_.BroadcastsInDim S512 (![] : Fin 0 → Fin S512.rank)
  bcast_S512_S1x1x1x512_3 : S512.BroadcastsInDim S1x1x1x512 (![3] : Fin 1 → Fin S1x1x1x512.rank)
  bcast_S1x1x1x512_S64x1x512x512_0_1_2_3 : S1x1x1x512.BroadcastsInDim S64x1x512x512 (![0, 1, 2, 3] : Fin 4 → Fin S64x1x512x512.rank)
  bcast_S_S64x1x512x1 : S_.BroadcastsInDim S64x1x512x1 (![] : Fin 0 → Fin S64x1x512x1.rank)
  slices_S64x1x512x512_S64x1x512x511_0_0_0_0 : S64x1x512x512.Slices ![0, 0, 0, 0] S64x1x512x511
  concatenates_S64x1x512x1_S64x1x512x511_S64x1x512x512_d3 : Shape.Concatenates [S64x1x512x1, S64x1x512x511] S64x1x512x512 3
  slices_S64x1x512x512_S64x1x512x511_0_0_0_1 : S64x1x512x512.Slices ![0, 0, 0, 1] S64x1x512x511
  concatenates_S64x1x512x511_S64x1x512x1_S64x1x512x512_d3 : Shape.Concatenates [S64x1x512x511, S64x1x512x1] S64x1x512x512 3
  reducesTo_S64x1x512x512_S_d0_1_2_3 : S64x1x512x512.ReducesTo [0, 1, 2, 3] S_
  h_S_ : 0 < S_.numel

variable [Facts₀]

class Facts : Prop extends Facts₀ where

variable [Facts]
-- ==== Proof.Spec.lean ====
/-
  The loss one pixel contributes, as a function of its row.

  A row of the signal image `o` (512 lanes) is first masked at lane 0 (`src`); every surviving signal
  value is then written over its two neighbours and itself, later writes winning: the value arriving from
  the right neighbour (lane l+1) beats the lane's own, which beats the one arriving from the left
  neighbour (lane l-1), which beats the untouched signal (`modified`). The loss at a lane is the smaller of
  the squared error against the signal and the cubed error against the modified signal plus a constant,
  weighted where the signal itself is nonzero. Everything is on the extended reals; the two constants are
  kept as the f32 words both programs print.

  The mean over the image sums this loss over all 64·1·512·512 pixels. The second half of the file regroups
  that one sum as: 16 consecutive groups of 2048 rows, each row 512 lanes — only commutativity and
  associativity of addition, so it holds in any commutative monoid.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

open Idealize.ShloMosaic Idealize.ShloMosaic.ValueIdx

namespace Cert.MaxLoss

/-- One row of an image: 512 lanes of extended reals. -/
abbrev Row := Fin 512 → EReal

/-- `a` where `a` is nonzero, otherwise `b`: one step of last-write-wins over a zero background. -/
def pick (a b : EReal) : EReal := if a ≠ 0 then a else b

/-- The sources that scatter: the signal, except at lane 0 (a source there writes nothing). -/
def src (o : Row) (l : Fin 512) : EReal := if l.val = 0 then 0 else o l

/-- What reaches lane `l` from its LEFT neighbour `l - 1` (nothing reaches lane 0). -/
def fromLeft (o : Row) (l : Fin 512) : EReal :=
  if h : l.val = 0 then 0 else src o ⟨l.val - 1, by have := l.isLt; omega⟩

/-- What reaches lane `l` from its RIGHT neighbour `l + 1` (nothing reaches lane 511). -/
def fromRight (o : Row) (l : Fin 512) : EReal :=
  if h : l.val = 511 then 0 else src o ⟨l.val + 1, by have := l.isLt; omega⟩

/-- The signal after the scatter: right neighbour's value over own over left neighbour's over the signal. -/
def modified (o : Row) (l : Fin 512) : EReal :=
  pick (fromRight o l) (pick (src o l) (pick (fromLeft o l) (o l)))

/-- The additive constant of the cubed branch, the f32 word both programs print (f32 of 0.05). -/
def cAdd : EReal := Ideal.ofBits .f32 0x3D4CCCCD#32
/-- The weight on signal pixels, the f32 word both programs print (30). -/
def cWeight : EReal := Ideal.ofBits .f32 0x41F00000#32

/-- The loss of lane `l` of a row with reconstruction `r` and signal `o`. -/
def loss (r o : Row) (l : Fin 512) : EReal :=
  if o l ≠ 0 then
    min ((r l - o l) * (r l - o l)) ((r l - modified o l) * (r l - modified o l) * (r l - modified o l) + cAdd) * cWeight
  else
    min ((r l - o l) * (r l - o l)) ((r l - modified o l) * (r l - modified o l) * (r l - modified o l) + cAdd)

/-- A select on "`a` differs from the f32 zero word", either spelling of the comparison: the printed form of
    `if a ≠ 0`. -/
theorem select_une_zero {α : Type} (a : EReal) (x y : α) :
    Scalar.select (Ideal.cmp .une a (Ideal.ofBits .f32 0x00000000#32)) x y = if a ≠ 0 then x else y := by
  unfold Scalar.select Ideal.cmp
  rw [Ideal.ofBits_zero_f32]
  by_cases h : a = 0 <;> simp [h]

theorem select_one_zero {α : Type} (a : EReal) (x y : α) :
    Scalar.select (Ideal.cmp .one a (Ideal.ofBits .f32 0x00000000#32)) x y = if a ≠ 0 then x else y :=
  select_une_zero a x y

/-! ## The total over the image, regrouped by row groups -/

/-- Pixel `l` of row `r` of row group `i` (rows numbered through batch and height together, 2048 to a
    group), as an index of the 64 × 1 × 512 × 512 image. -/
def pixel (i : Fin 16) (r : Fin 2048) (l : Fin 512) : (⟨4, ![64, 1, 512, 512]⟩ : Shape).Idx :=
  ix4 (⟨(2048 * i.val + r.val) / 512, by have := i.isLt; have := r.isLt; omega⟩ : Fin 64) (0 : Fin 1)
    (⟨(2048 * i.val + r.val) % 512, Nat.mod_lt _ (by decide)⟩ : Fin 512) l

/-- Every pixel is pixel `l` of row `r` of group `i` for exactly one `(i, r, l)`. -/
def pixelEquiv : Fin 16 × Fin 2048 × Fin 512 ≃ (⟨4, ![64, 1, 512, 512]⟩ : Shape).Idx where
  toFun x := pixel x.1 x.2.1 x.2.2
  invFun j := (⟨(512 * (j 0).val + (j 2).val) / 2048, by
      have h0 : (j 0).val < 64 := (j 0).isLt; have h2 : (j 2).val < 512 := (j 2).isLt; omega⟩,
    ⟨(512 * (j 0).val + (j 2).val) % 2048, Nat.mod_lt _ (by decide)⟩, j 3)
  left_inv x := by
    obtain ⟨i, r, l⟩ := x
    have hi := i.isLt; have hr := r.isLt
    refine Prod.ext (Fin.ext ?_) (Prod.ext (Fin.ext ?_) rfl)
    · show (512 * ((2048 * i.val + r.val) / 512) + (2048 * i.val + r.val) % 512) / 2048 = i.val
      omega
    · show (512 * ((2048 * i.val + r.val) / 512) + (2048 * i.val + r.val) % 512) % 2048 = r.val
      omega
  right_inv j := by
    have h0 : (j 0).val < 64 := (j 0).isLt; have h1 : (j 1).val < 1 := (j 1).isLt; have h2 : (j 2).val < 512 := (j 2).isLt
    refine (funext fun a => Fin.ext ?_ : pixel _ _ _ = j)
    match a with
    | ⟨0, _⟩ =>
      show (2048 * ((512 * (j 0).val + (j 2).val) / 2048) + (512 * (j 0).val + (j 2).val) % 2048) / 512 = (j 0).val
      omega
    | ⟨1, _⟩ => show 0 = (j 1).val; omega
    | ⟨2, _⟩ =>
      show (2048 * ((512 * (j 0).val + (j 2).val) / 2048) + (512 * (j 0).val + (j 2).val) % 2048) % 512 = (j 2).val
      omega
    | ⟨3, _⟩ => rfl

/-- The sum over the image is the sum over groups, rows of a group, and lanes. -/
theorem sum_pixels {M : Type*} [AddCommMonoid M] (g : (⟨4, ![64, 1, 512, 512]⟩ : Shape).Idx → M) :
    ∑ j, g j = ∑ i : Fin 16, ∑ r : Fin 2048, ∑ l : Fin 512, g (pixel i r l) := by
  rw [← Fintype.sum_equiv pixelEquiv (fun x => g (pixel x.1 x.2.1 x.2.2)) g (fun _ => rfl), Fintype.sum_prod_type]
  exact Finset.sum_congr rfl fun i _ => Fintype.sum_prod_type _

/-! ## The mean -/

/-- An image: 64 × 1 × 512 × 512 extended reals. -/
abbrev Image := (⟨4, ![64, 1, 512, 512]⟩ : Shape).Idx → EReal

/-- Row `r` of group `i` of an image. -/
def rowOf (a : Image) (i : Fin 16) (r : Fin 2048) : Row := fun l => a (pixel i r l)

/-- The loss summed over one group of 2048 rows. -/
def groupLoss (a0 a1 : Image) (i : Fin 16) : EReal :=
  ∑ r : Fin 2048, ∑ l : Fin 512, loss (rowOf a0 i r) (rowOf a1 i r) l

/-- The mean loss: the f32 zero word plus the sum of the group losses, divided by the f32 word of 2^24 (the
    number of pixels), with the division both programs print. -/
def meanLoss (a0 a1 : Image) : EReal :=
  Ideal.div (Ideal.ofBits .f32 0x00000000#32 + ∑ i : Fin 16, groupLoss a0 a1 i) (Ideal.ofBits .f32 0x4B800000#32)

end Cert.MaxLoss

end
-- ==== Proof.KerLoss.lean ====
/-
  The kernel body's two pure values, read at an index: the elementwise loss of a block of rows, and the sum of a
  block over its rows and lanes.
-/
import proofs.«423925_j62251255988863_3_alg».proof.Proof.Gen.KernelIdeal.Skeleton
import proofs.«423925_j62251255988863_3_alg».proof.Proof.Spec
import Idealize.ShloMosaic.Lib.KernelVsHost

noncomputable section

open Idealize.ShloMosaic Idealize.ShloMosaic.ValueIdx

namespace Cert.MaxLoss.Ker

open Cert.KernelIdeal Cert.KernelIdeal.Gen Cert.MaxLoss

/-! ## Lane numbers as 32-bit words

A lane number is below 512, so its word reads the same signed and unsigned, and two such words are equal exactly when
the numbers are. -/

/-- The word of a lane number, read signed, is the number. -/
private theorem toInt_lane (n : Nat) (hn : n < 512) : (BitVec.ofNat 32 n).toInt = (n : Int) := by
  have e := BitVec.toInt_eq_toNat_cond (BitVec.ofNat 32 n)
  rw [BitVec.toNat_ofNat] at e
  split_ifs at e <;> omega

/-- "Lane at least 1", as a bit. -/
private theorem cmpi_sge_one (n : Nat) (hn : n < 512) :
    IntOp.cmpi .sge (BitVec.ofNat 32 n) 1#32 = if n = 0 then 0#1 else 1#1 := by
  have h1 : (1#32 : BitVec 32).toInt = 1 := by decide
  show BitVec.ofBool (decide ((1#32 : BitVec 32).toInt ≤ (BitVec.ofNat 32 n).toInt)) = _
  rw [h1, toInt_lane n hn]
  by_cases h : n = 0
  · subst h; rfl
  · rw [if_neg h, decide_eq_true (by omega)]; rfl

/-- "Lane equal to a given lane", as a bit. -/
private theorem cmpi_eq_lane (n m : Nat) (hn : n < 512) (hm : m < 512) :
    IntOp.cmpi .eq (BitVec.ofNat 32 n) (BitVec.ofNat 32 m) = if n = m then 1#1 else 0#1 := by
  show BitVec.ofBool (BitVec.ofNat 32 n == BitVec.ofNat 32 m) = _
  by_cases h : n = m
  · subst h; simp
  · rw [if_neg h]
    have hne : ¬ BitVec.ofNat 32 n = BitVec.ofNat 32 m := fun e => h (by
      have := congrArg BitVec.toNat e
      simp only [BitVec.toNat_ofNat] at this
      omega)
    rw [beq_false_of_ne hne]; rfl

/-! ## The blocks the body builds from the signal -/

/-- The f32 zero splat. -/
private abbrev zeroBlk : FVec Ideal S2048x512 .f32 := broadcast S2048x512 (Scalar.ofBits .f32 0x00000000#32)

/-- The signal with lane 0 masked: the sources of the scatter. -/
private def srcBlk (hi : S2048x512.Iotas .tc 32 [1]) (v2 : FVec Ideal S2048x512 .f32) : FVec Ideal S2048x512 .f32 :=
  select (cmpi .sge (iota .tc S2048x512 32 [1] hi) (broadcast S2048x512 1#32)) v2 zeroBlk

/-- The sources moved one lane up, lane 0 cleared: what arrives from the left neighbour. -/
private def leftBlk (hi : S2048x512.Iotas .tc 32 [1]) (hr : S2048x512.Rotates 1 none) (v2 : FVec Ideal S2048x512 .f32) :
    FVec Ideal S2048x512 .f32 :=
  select (cmpi .eq (iota .tc S2048x512 32 [1] hi) (broadcast S2048x512 0#32)) zeroBlk
    (dynamicRotate 1 1#32 none (srcBlk hi v2) hr)

/-- The sources moved one lane down, lane 511 cleared: what arrives from the right neighbour. -/
private def rightBlk (hi : S2048x512.Iotas .tc 32 [1]) (hr : S2048x512.Rotates 1 none) (v2 : FVec Ideal S2048x512 .f32) :
    FVec Ideal S2048x512 .f32 :=
  select (cmpi .eq (iota .tc S2048x512 32 [1] hi) (broadcast S2048x512 511#32)) zeroBlk
    (dynamicRotate 1 511#32 none (srcBlk hi v2) hr)

/-- The signal after the scatter. -/
private def modBlk (hi : S2048x512.Iotas .tc 32 [1]) (hr : S2048x512.Rotates 1 none) (v2 : FVec Ideal S2048x512 .f32) :
    FVec Ideal S2048x512 .f32 :=
  select (cmpf .one (rightBlk hi hr v2) zeroBlk) (rightBlk hi hr v2)
    (select (cmpf .one (srcBlk hi v2) zeroBlk) (srcBlk hi v2)
      (select (cmpf .one (leftBlk hi hr v2) zeroBlk) (leftBlk hi hr v2) v2))

/-- The lane number the iota holds at row r, lane l. -/
private theorem iota_lane (hi : S2048x512.Iotas .tc 32 [1]) (r : Fin 2048) (l : Fin 512) :
    iota .tc S2048x512 32 [1] hi (ix2 r l) = BitVec.ofNat 32 l.val :=
  iota_single_apply .tc S2048x512 32 1 hi (ix2 r l)

/-- The masked signal at row r, lane l is the row's source at l. -/
private theorem srcBlk_apply (hi : S2048x512.Iotas .tc 32 [1]) (v2 : FVec Ideal S2048x512 .f32) (r : Fin 2048)
    (l : Fin 512) : srcBlk hi v2 (ix2 r l) = src (fun l' => v2 (ix2 r l')) l := by
  show Scalar.select (IntOp.cmpi .sge (iota .tc S2048x512 32 [1] hi (ix2 r l)) 1#32) (v2 (ix2 r l))
    (Ideal.ofBits .f32 0x00000000#32) = _
  rw [iota_lane, cmpi_sge_one _ l.isLt, Ideal.ofBits_zero_f32]
  unfold src
  by_cases h : l.val = 0
  · rw [if_pos h, if_pos h]; exact select_zero _ _
  · rw [if_neg h, if_neg h]; exact select_one _ _

/-- What arrives from the left at row r, lane l. -/
private theorem leftBlk_apply (hi : S2048x512.Iotas .tc 32 [1]) (hr : S2048x512.Rotates 1 none)
    (v2 : FVec Ideal S2048x512 .f32) (r : Fin 2048) (l : Fin 512) :
    leftBlk hi hr v2 (ix2 r l) = fromLeft (fun l' => v2 (ix2 r l')) l := by
  show Scalar.select (IntOp.cmpi .eq (iota .tc S2048x512 32 [1] hi (ix2 r l)) (BitVec.ofNat 32 0))
    (Ideal.ofBits .f32 0x00000000#32) (dynamicRotate 1 1#32 none (srcBlk hi v2) hr (ix2 r l)) = _
  rw [iota_lane, cmpi_eq_lane _ _ l.isLt (by omega), Ideal.ofBits_zero_f32]
  unfold fromLeft
  by_cases h : l.val = 0
  · rw [if_pos h, dif_pos h]; exact select_one _ _
  · rw [if_neg h, dif_neg h]
    refine (select_zero _ _).trans ?_
    have hl := l.isLt
    refine (dynamicRotate_apply (1 : Fin 2) 1#32 (srcBlk hi v2) hr (ix2 r l)
      (ix2 r (⟨l.val - 1, by omega⟩ : Fin 512)) (fun b => ?_)).trans (srcBlk_apply hi v2 r _)
    match b with
    | ⟨0, _⟩ => rfl
    | ⟨1, _⟩ =>
      show l.val - 1 = (l.val + 512 - 1 % 512) % 512
      omega

/-- What arrives from the right at row r, lane l. -/
private theorem rightBlk_apply (hi : S2048x512.Iotas .tc 32 [1]) (hr : S2048x512.Rotates 1 none)
    (v2 : FVec Ideal S2048x512 .f32) (r : Fin 2048) (l : Fin 512) :
    rightBlk hi hr v2 (ix2 r l) = fromRight (fun l' => v2 (ix2 r l')) l := by
  show Scalar.select (IntOp.cmpi .eq (iota .tc S2048x512 32 [1] hi (ix2 r l)) (BitVec.ofNat 32 511))
    (Ideal.ofBits .f32 0x00000000#32) (dynamicRotate 1 511#32 none (srcBlk hi v2) hr (ix2 r l)) = _
  rw [iota_lane, cmpi_eq_lane _ _ l.isLt (by omega), Ideal.ofBits_zero_f32]
  unfold fromRight
  by_cases h : l.val = 511
  · rw [if_pos h, dif_pos h]; exact select_one _ _
  · rw [if_neg h, dif_neg h]
    refine (select_zero _ _).trans ?_
    have hl := l.isLt
    refine (dynamicRotate_apply (1 : Fin 2) 511#32 (srcBlk hi v2) hr (ix2 r l)
      (ix2 r (⟨l.val + 1, by omega⟩ : Fin 512)) (fun b => ?_)).trans (srcBlk_apply hi v2 r _)
    match b with
    | ⟨0, _⟩ => rfl
    | ⟨1, _⟩ =>
      show l.val + 1 = (l.val + 512 - 511 % 512) % 512
      omega

/-- The scattered signal at row r, lane l. -/
private theorem modBlk_apply (hi : S2048x512.Iotas .tc 32 [1]) (hr : S2048x512.Rotates 1 none)
    (v2 : FVec Ideal S2048x512 .f32) (r : Fin 2048) (l : Fin 512) :
    modBlk hi hr v2 (ix2 r l) = modified (fun l' => v2 (ix2 r l')) l := by
  show Scalar.select (Ideal.cmp .one (rightBlk hi hr v2 (ix2 r l)) (Ideal.ofBits .f32 0x00000000#32))
      (rightBlk hi hr v2 (ix2 r l))
      (Scalar.select (Ideal.cmp .one (srcBlk hi v2 (ix2 r l)) (Ideal.ofBits .f32 0x00000000#32)) (srcBlk hi v2 (ix2 r l))
        (Scalar.select (Ideal.cmp .one (leftBlk hi hr v2 (ix2 r l)) (Ideal.ofBits .f32 0x00000000#32))
          (leftBlk hi hr v2 (ix2 r l)) (v2 (ix2 r l)))) = _
  rw [select_one_zero, select_one_zero, select_one_zero, rightBlk_apply, srcBlk_apply, leftBlk_apply]
  rfl

/-- The body's elementwise value at row `r`, lane `l` of a block is the loss of lane `l` of row `r` of the two
    loaded blocks (reconstruction, signal). -/
theorem pay2_apply (v0 v2 : Vec Ideal S2048x512 .f32) (r : Fin 2048) (l : Fin 512) :
    k0_pay2 (F := Ideal) v0 v2 (ix2 r l) = loss (fun l' => v0 (ix2 r l')) (fun l' => v2 (ix2 r l')) l := by
  unfold k0_pay2
  simp only [shapeCast_self]
  show Scalar.select (Ideal.cmp .one (v2 (ix2 r l)) (Ideal.ofBits .f32 0x00000000#32))
      (min ((v0 (ix2 r l) - v2 (ix2 r l)) * (v0 (ix2 r l) - v2 (ix2 r l)))
          ((v0 (ix2 r l) - modBlk iota_S2048x512_d1_w32 rotates_S2048x512_d1 v2 (ix2 r l))
              * (v0 (ix2 r l) - modBlk iota_S2048x512_d1_w32 rotates_S2048x512_d1 v2 (ix2 r l))
              * (v0 (ix2 r l) - modBlk iota_S2048x512_d1_w32 rotates_S2048x512_d1 v2 (ix2 r l))
            + Ideal.ofBits .f32 0x3D4CCCCD#32)
        * Ideal.ofBits .f32 0x41F00000#32)
      (min ((v0 (ix2 r l) - v2 (ix2 r l)) * (v0 (ix2 r l) - v2 (ix2 r l)))
          ((v0 (ix2 r l) - modBlk iota_S2048x512_d1_w32 rotates_S2048x512_d1 v2 (ix2 r l))
              * (v0 (ix2 r l) - modBlk iota_S2048x512_d1_w32 rotates_S2048x512_d1 v2 (ix2 r l))
              * (v0 (ix2 r l) - modBlk iota_S2048x512_d1_w32 rotates_S2048x512_d1 v2 (ix2 r l))
            + Ideal.ofBits .f32 0x3D4CCCCD#32)) = _
  rw [select_one_zero, modBlk_apply]
  rfl

/-! ## The block's sum -/

/-- The sum of every row over its lanes. -/
private def laneSums (h : S2048x512.Reduces [1] S2048) (v40 : FVec Ideal S2048x512 .f32) : FVec Ideal S2048 .f32 :=
  multiReduction .add [1] S2048 v40 0x00000000#32 h (.inl rfl) rfl

/-- The row sums as a one-lane block. -/
private def rowCol (h : S2048x512.Reduces [1] S2048) (hc : S2048.ShapeCasts S2048x1) (v40 : FVec Ideal S2048x512 .f32) :
    FVec Ideal S2048x1 .f32 :=
  shapeCast S2048x1 (laneSums h v40) hc

/-- The sum of the row sums. -/
private def total (h : S2048x512.Reduces [1] S2048) (hc : S2048.ShapeCasts S2048x1) (h' : S2048x1.Reduces [0] S1)
    (v40 : FVec Ideal S2048x512 .f32) : FVec Ideal S1 .f32 :=
  multiReduction .add [0] S1 (rowCol h hc v40) 0x00000000#32 h' (.inl rfl) rfl

/-- A row's sum is the sum of its lanes. -/
private theorem laneSums_apply (h : S2048x512.Reduces [1] S2048) (v40 : FVec Ideal S2048x512 .f32) (r : Fin 2048) :
    laneSums h v40 (ix1 r) = ∑ l : Fin 512, v40 (ix2 r l) := by
  have hφ : FKind.Formats FTy.f32 := .inl rfl
  have hacc : (0x00000000#32 : BitVec 32) = FKind.add.neutral .f32 hφ := rfl
  refine (Ideal.multiReduction_add_single v40 0x00000000#32 h hφ hacc (ix1 r)).trans ?_
  refine Finset.sum_congr rfl fun l _ => congrArg v40 ?_
  funext a
  apply Fin.ext
  match a with
  | ⟨0, _⟩ => rfl
  | ⟨1, _⟩ => rfl

/-- The one-lane block holds the row sums. -/
private theorem rowCol_apply (h : S2048x512.Reduces [1] S2048) (hc : S2048.ShapeCasts S2048x1)
    (v40 : FVec Ideal S2048x512 .f32) (r : Fin 2048) :
    rowCol h hc v40 (ix2 r (0 : Fin 1)) = laneSums h v40 (ix1 r) :=
  shapeCast_apply (laneSums h v40) hc (ix2 r (0 : Fin 1)) (ix1 r) (by
    rw [Shape.rowMajor_val_one, Shape.rowMajor_val_two]
    show r.val = r.val * 1 + 0
    omega)

/-- The total is the sum over rows of the row sums. -/
private theorem total_apply (h : S2048x512.Reduces [1] S2048) (hc : S2048.ShapeCasts S2048x1) (h' : S2048x1.Reduces [0] S1)
    (v40 : FVec Ideal S2048x512 .f32) :
    total h hc h' v40 (ix1 (0 : Fin 1)) = ∑ r : Fin 2048, ∑ l : Fin 512, v40 (ix2 r l) := by
  have hφ : FKind.Formats FTy.f32 := .inl rfl
  have hacc : (0x00000000#32 : BitVec 32) = FKind.add.neutral .f32 hφ := rfl
  refine (Ideal.multiReduction_add_single (rowCol h hc v40) 0x00000000#32 h' hφ hacc (ix1 (0 : Fin 1))).trans ?_
  refine Finset.sum_congr rfl fun r _ => ?_
  refine Eq.trans (congrArg (rowCol h hc v40) ?_) ((rowCol_apply h hc v40 r).trans (laneSums_apply h v40 r))
  funext a
  apply Fin.ext
  match a with
  | ⟨0, _⟩ => rfl
  | ⟨1, _⟩ => rfl

/-- The stored tile holds, at every position, the sum of the block over its rows and lanes. -/
theorem pay1_apply (v40 : FVec Ideal S2048x512 .f32) (y : S1x8x128.Idx) :
    k0_pay1 (F := Ideal) v40 y = ∑ r : Fin 2048, ∑ l : Fin 512, v40 (ix2 r l) := by
  unfold k0_pay1
  show shapeCast S1x1 (total reduces_S2048x512_S2048 shapeCasts_S2048_S2048x1 reduces_S2048x1_S1 v40) shapeCasts_S1_S1x1
      (fun a => ⟨(![0, 0] : Fin 2 → Nat) a, inpos_S1x1_p0_0 a⟩) = _
  refine (shapeCast_apply _ shapeCasts_S1_S1x1 _ (ix1 (0 : Fin 1)) ?_).trans (total_apply _ _ _ v40)
  rw [Shape.rowMajor_val_one, Shape.rowMajor_val_two]
  rfl

end Cert.MaxLoss.Ker

end
-- ==== Proof.KerArray.lean ====
/-
  What the kernel leaves in its output array.

  Before the region the two images are re-laid as 32768 rows of 512 lanes (a row-major reshape, so row R of the
  re-laid image is row (R / 512, R % 512) of the image). Grid point t loads rows 2048·t … 2048·t + 2047 of both
  re-laid images — group t of the specification — and stores, at every position of its 1 × 8 × 128 tile of the
  output, the loss summed over that group. The 16 tiles tile the 16 × 8 × 128 output array, so after the run the
  array holds, at (i, a, b), the loss of group i.
-/
import proofs.«423925_j62251255988863_3_alg».proof.Proof.Gen.KernelIdeal.Frame
import proofs.«423925_j62251255988863_3_alg».proof.Proof.KerLoss
import Idealize.ShloMosaic.Lib.Pipeline.Value
import Idealize.ShloMosaic.Lib.StableHlo.Run
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.MaxLoss.Ker

open Cert.KernelIdeal Cert.KernelIdeal.Gen Cert.MaxLoss

variable (m : (ℓ : Loc nD τ sig) → Buf (Elt Ideal) ℓ) (ρ : Dev nD → PrngReg)

/-- The reconstruction and the signal image as launched on core `c`. -/
abbrev recon (c : Dev nD) : Image := m ((c : Thread nD τ).loc main_arg0)
abbrev signal (c : Dev nD) : Image := m ((c : Thread nD τ).loc main_arg1)

/-- A grid point as a group number. -/
def grp (t : Fin cfg0.N) : Fin 16 := ⟨t.val, by have h := t.isLt; have e : cfg0.N = 16 := N_0; omega⟩

/-- The region finds the re-laid reconstruction: the image reshaped to 32768 × 512. -/
theorem V_relaid0 (c : Dev nD) :
    (V m c main_v0 : S32768x512.Idx → EReal) = shapeCast S32768x512 (recon m c) shapeCasts_S64x1x512x512_S32768x512 := by
  show StableHlo.after hostOps0 (fun b => m (c, b)) (Proc.devRef .tc main_v0) = _
  after_results
  rfl

/-- The region finds the re-laid signal. -/
theorem V_relaid1 (c : Dev nD) :
    (V m c main_v1 : S32768x512.Idx → EReal) = shapeCast S32768x512 (signal m c) shapeCasts_S64x1x512x512_S32768x512 := by
  show StableHlo.after hostOps0 (fun b => m (c, b)) (Proc.devRef .tc main_v1) = _
  after_results
  rfl

/-- Row R, lane l of a re-laid image is pixel (R / 512, 0, R % 512, l): both have row-major position 512·R + l. -/
theorem relaid_apply (a : Image) (i : Fin 16) (r : Fin 2048) (l : Fin 512) (k : S32768x512.Idx)
    (hk0 : (k 0).val = 2048 * i.val + r.val) (hk1 : (k 1).val = l.val) :
    shapeCast S32768x512 a shapeCasts_S64x1x512x512_S32768x512 k = a (pixel i r l) := by
  refine shapeCast_apply a _ k (pixel i r l) ?_
  rw [Shape.rowMajor_val_four, Shape.rowMajor_val_two, hk0, hk1]
  show ((((2048 * i.val + r.val) / 512) * 1 + 0) * 512 + (2048 * i.val + r.val) % 512) * 512 + l.val
    = (2048 * i.val + r.val) * 512 + l.val
  omega

/-- The printed index maps over the grid: point t reads row block t of both inputs and writes tile t. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The reconstruction block at point t, row r, lane l, is pixel l of row r of group t. -/
theorem blk0_apply (c : Dev nD) (t : Fin cfg0.N) (r : Fin 2048) (l : Fin 512) :
    (iblk m c 0 t : Vec Ideal S2048x512 .f32) (ix2 r l) = recon m c (pixel (grp t) r l) := by
  obtain ⟨e0, e1, -⟩ := idx_facts t
  unfold iblk
  rw [View.read_apply]
  show (V m c main_v0 : S32768x512.Idx → EReal) _ = _
  rw [V_relaid0]
  refine relaid_apply (recon m c) (grp t) r l _ ?_ ?_
  · show win0_0.index t (0 : Fin 2) * 2048 + 1 * r.val = 2048 * t.val + r.val
    rw [e0]; omega
  · show win0_0.index t (1 : Fin 2) * 512 + 1 * l.val = l.val
    rw [e1]; omega

/-- The signal block at point t likewise. -/
theorem blk1_apply (c : Dev nD) (t : Fin cfg0.N) (r : Fin 2048) (l : Fin 512) :
    (iblk m c 1 t : Vec Ideal S2048x512 .f32) (ix2 r l) = signal m c (pixel (grp t) r l) := by
  obtain ⟨-, -, e0, e1, -⟩ := idx_facts t
  unfold iblk
  rw [View.read_apply]
  show (V m c main_v1 : S32768x512.Idx → EReal) _ = _
  rw [V_relaid1]
  refine relaid_apply (signal m c) (grp t) r l _ ?_ ?_
  · show win0_1.index t (0 : Fin 2) * 2048 + 1 * r.val = 2048 * t.val + r.val
    rw [e0]; omega
  · show win0_1.index t (1 : Fin 2) * 512 + 1 * l.val = l.val
    rw [e1]; omega

/-- The stored tile of two blocks that are group i of two images holds the loss of group i everywhere. -/
theorem tile_eq (x0 x1 : Vec Ideal S2048x512 .f32) (a0 a1 : Image) (i : Fin 16)
    (h0 : ∀ r l, x0 (ix2 r l) = a0 (pixel i r l)) (h1 : ∀ r l, x1 (ix2 r l) = a1 (pixel i r l)) (y : S1x8x128.Idx) :
    k0_pay1 (F := Ideal) (k0_pay2 (F := Ideal) x0 x1) y = groupLoss a0 a1 i := by
  rw [pay1_apply]
  unfold groupLoss
  refine Finset.sum_congr rfl fun r _ => Finset.sum_congr rfl fun l _ => ?_
  rw [pay2_apply]
  have e0 : (fun l' => x0 (ix2 r l')) = rowOf a0 i r := funext fun l' => h0 r l'
  have e1 : (fun l' => x1 (ix2 r l')) = rowOf a1 i r := funext fun l' => h1 r l'
  rw [e0, e1]

/-- The output array the run ends with: the loss of group i at every (i, a, b). -/
def outArr (a0 a1 : Image) : S16x8x128.Idx → EReal := fun j => groupLoss a0 a1 ⟨(j 0).val, (j 0).isLt⟩

theorem hz2 : (![0, 0] : Fin 2 → Nat) = fun _ => 0 := funext fun a => by fin_cases a <;> rfl
theorem hz3 : (![0, 0, 0] : Fin 3 → Nat) = fun _ => 0 := funext fun a => by fin_cases a <;> rfl

/-- What point t writes back is tile t of that array. -/
theorem flushed_eq (c : Dev nD) (t : Fin cfg0.N) :
    (dats m 0 c).flushed 2 t = ((cfg0.win 2).blk t).view.read (Elt Ideal) (outArr (recon m c) (signal m c)) := by
  obtain ⟨-, -, -, -, e0, -⟩ := idx_facts t
  show (cfg0.win 2).cut (grid0.coords t) ((dats m 0 c).after 2 t) = _
  rw [after0_2]
  unfold out0_2
  rw [View.canon_unit_zero hz3]
  simp only [View.ld_unit_zero (S := S2048x512) hz2]
  funext y
  show k0_pay1 (F := Ideal) (k0_pay2 (F := Ideal) (iblk m c 0 t) (iblk m c 1 t)) y
    = outArr (recon m c) (signal m c) (((cfg0.win 2).blk t).view.emb y)
  refine (tile_eq (iblk m c 0 t) (iblk m c 1 t) (recon m c) (signal m c) (grp t) (blk0_apply m c t) (blk1_apply m c t) y).trans ?_
  unfold outArr
  refine congrArg (groupLoss (recon m c) (signal m c)) (Fin.ext ?_)
  show t.val = win0_2.index t (0 : Fin 3) * 1 + 1 * (y 0).val
  have hy : (y 0).val < 1 := (y 0).isLt
  rw [e0]; omega

/-- An index of the output array is in point t's tile iff each coordinate is in the tile's range. -/
theorem mem_tile (t : Fin cfg0.N) (i : S16x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v2).slice (win0_2.rect t)).set ↔ _
  rw [View.set_slice_whole, Rect.mem_set_unit]
  exact Iff.rfl

/-- The output array after the run. -/
theorem final_out (c : Dev nD) : (dats m 0 c).arrAt 2 cfg0.N = outArr (recon m c) (signal m c) :=
  (dats m 0 c).arrAt_eq_of_cover 2 (outArr (recon m c) (signal m c)) (fun t _ => flushed_eq m c t) fun i => by
    have h0 : (i 0).val < 16 := (i 0).isLt
    have h1 : (i 1).val < 8 := (i 1).isLt
    have h2 : (i 2).val < 128 := (i 2).isLt
    have hN : cfg0.N = 16 := N_0
    have hlt : (i 0).val < cfg0.N := by omega
    obtain ⟨-, -, -, -, e0', e1, e2⟩ := idx_facts ⟨(i 0).val, hlt⟩
    have e0 : win0_2.index (⟨(i 0).val, hlt⟩ : Fin cfg0.N) (0 : Fin 3) = (i 0).val := e0'
    refine ⟨⟨(i 0).val, hlt⟩, flush0_2 _, ?_⟩
    rw [mem_tile]
    intro a
    match a with
    | ⟨0, _⟩ =>
      show win0_2.index _ (0 : Fin 3) * 1 ≤ (i 0).val ∧ (i 0).val < win0_2.index _ (0 : Fin 3) * 1 + 1
      rw [e0]; omega
    | ⟨1, _⟩ =>
      show win0_2.index _ (1 : Fin 3) * 8 ≤ (i 1).val ∧ (i 1).val < win0_2.index _ (1 : Fin 3) * 8 + 8
      rw [e1]; omega
    | ⟨2, _⟩ =>
      show win0_2.index _ (2 : Fin 3) * 128 ≤ (i 2).val ∧ (i 2).val < win0_2.index _ (2 : Fin 3) * 128 + 128
      rw [e2]; omega

/-! ## The host operations after the region

  They take entry (i, 0, 0) of every tile (a slice to 16 × 1 × 1 reshaped to 16 entries), add the 16 entries to the
  zero word, and divide by the word of 2^24. -/

/-- A sum over the indices of a 16-entry vector is the sum over its 16 positions. -/
theorem sum_vec16 {M : Type*} [AddCommMonoid M] (f : S16.Idx → M) : ∑ j, f j = ∑ k : Fin 16, f (ix1 k) :=
  (Fintype.sum_equiv (⟨fun k => ix1 k, fun j => j 0, fun _ => rfl, fun j => (eq_ix1 j).symm⟩ : Fin 16 ≃ S16.Idx)
    (fun k => f (ix1 k)) f (fun _ => rfl)).symm

/-- Those operations of an array whose (k, 0, 0) entries are `g k`: the zero word plus the sum of the `g k`, divided. -/
theorem tail_apply (G : S16x8x128.Idx → EReal) (g : Fin 16 → EReal)
    (hG : ∀ k : Fin 16, G (ix3 k (0 : Fin 8) (0 : Fin 128)) = g k) (i : S_.Idx) :
    Host.divf (F := Ideal)
      (Host.reduceAdd (F := Ideal) (shapeCast S16 (extractStridedSlice S16x1x1 ![0, 0, 0] G slices_S16x8x128_S16x1x1_0_0_0) shapeCasts_S16x1x1_S16)
        (constant (F := Ideal) S_ .f32 0x00000000#32) reducesTo_S16_S_d0 h_S_)
      (constant (F := Ideal) S_ .f32 0x4B800000#32) i
    = Ideal.div (Ideal.ofBits .f32 0x00000000#32 + ∑ k : Fin 16, g k) (Ideal.ofBits .f32 0x4B800000#32) := by
  show Ideal.div (Ideal.hostReduceAdd reducesTo_S16_S_d0 _ (Ideal.ofBits .f32 0x00000000#32) i) (Ideal.ofBits .f32 0x4B800000#32) = _
  rw [Ideal.hostReduceAdd_total reducesTo_S16_S_d0 (fun b => b.elim0), sum_vec16]
  refine congrArg (fun s => Ideal.div (Ideal.ofBits .f32 0x00000000#32 + s) (Ideal.ofBits .f32 0x4B800000#32)) ?_
  refine Finset.sum_congr rfl fun k _ => ?_
  refine (shapeCast_apply _ shapeCasts_S16x1x1_S16 (ix1 k) (ix3 k (0 : Fin 1) (0 : Fin 1)) ?_).trans ?_
  · rw [Shape.rowMajor_val_three, Shape.rowMajor_val_one]
    show (k.val * 1 + 0) * 1 + 0 = k.val
    omega
  · refine (extractStridedSlice_apply ![0, 0, 0] G slices_S16x8x128_S16x1x1_0_0_0 _ (ix3 k (0 : Fin 8) (0 : Fin 128)) (fun a => ?_)).trans (hG k)
    match a with
    | ⟨0, _⟩ => show k.val = 0 + k.val; omega
    | ⟨1, _⟩ => rfl
    | ⟨2, _⟩ => rfl

/-- The program's result on core `c`: the mean loss of the two launched images. -/
theorem result_eq (c : Dev nD) :
    Pipeline.afterTail₀ cfgs (dats m) 0 (V0 m) [hostOps1] c main_v6 = fun _ => meanLoss (recon m c) (signal m c) := by
  unfold Pipeline.afterTail₀
  show StableHlo.after hostOps1 _ (Proc.devRef .tc main_v6) = _
  after_results
  have hW : Pipeline.withArrays (cfgs 0).spec c (V0 m c) (fun w => (dats m 0 c).arrAt w (cfgs 0).N) (Proc.devRef .tc main_v2)
      = outArr (recon m c) (signal m c) :=
    (Pipeline.withArrays_arr spec0 launch0.win.arr_inj c _ _ 2).trans (final_out m c)
  rw [hW]
  funext i
  unfold meanLoss
  exact tail_apply (outArr (recon m c) (signal m c)) (groupLoss (recon m c) (signal m c)) (fun k => rfl) i

end Cert.MaxLoss.Ker

end
-- ==== Proof.RefLoss.lean ====
/-
  The reference's weighted loss array, read at a pixel, is the row loss of the specification.
-/
import proofs.«423925_j62251255988863_3_alg».proof.Proof.Gen.ReferenceIdeal.Read
import proofs.«423925_j62251255988863_3_alg».proof.Proof.Spec

noncomputable section

open Idealize.ShloMosaic Idealize.ShloMosaic.ValueIdx

namespace Cert.MaxLoss.Ref

open Cert.ReferenceIdeal Cert.ReferenceIdeal.Read Cert.MaxLoss

/-- The signed comparison "lane ≥ 1" of a lane number below 512, as a bit. -/
theorem ge_one_bit (n : Nat) (hn : n < 512) :
    IntOp.cmpi .sge (BitVec.ofNat 32 n) 1#32 = if n = 0 then 0#1 else 1#1 := by
  unfold IntOp.cmpi
  show BitVec.ofBool ((1#32).sle (BitVec.ofNat 32 n)) = _
  by_cases h0 : n = 0
  · subst h0; rfl
  · rw [if_neg h0]
    have : (1#32).sle (BitVec.ofNat 32 n) = true := by
      have hm : (BitVec.ofNat 32 n).toNat = n := by
        rw [BitVec.toNat_ofNat]; omega
      have h1 : (1#32).toNat = 1 := rfl
      simp only [BitVec.sle, BitVec.toInt_eq_toNat_cond, hm, h1, decide_eq_true_eq]
      split_ifs <;> omega
    rw [this]; rfl

/-- The masked signal of the reference at a pixel is the specification's source value of the lane. -/
theorem src_apply (x1 : (⟨S64x1x512x512, .f32⟩ : BufTy).Contents (Elt Ideal)) (b : Fin 64) (h : Fin 512) (l : Fin 512) :
    val_main_v8 (F := Ideal) x1 (ix4 b (0 : Fin 1) h l) = src (fun l' => x1 (ix4 b (0 : Fin 1) h l')) l := by
  rw [val_main_v8_apply, val_main_v7_apply, val_main_v2_apply, val_main_v1_apply, val_main_cst_apply,
    val_main_v6_apply, val_main_v5_apply, val_main_v4_apply, val_main_v0_apply, val_main_v3_apply, val_main_c_apply,
    val_main_call0_v1_apply, val_main_call0_v0_apply, val_main_cst_0_apply]
  show Scalar.select (IntOp.andi (Ideal.cmp .une (x1 (ix4 b 0 h l)) (Ideal.ofBits .f32 0x00000000#32))
      (IntOp.cmpi .sge (BitVec.ofNat 32 l.val) 1#32)) (x1 (ix4 b 0 h l)) (Ideal.ofBits .f32 0x00000000#32) = _
  rw [ge_one_bit l.val l.isLt, Ideal.ofBits_zero_f32]
  unfold src
  by_cases hl : l.val = 0
  · rw [if_pos hl, if_pos hl]
    unfold Scalar.select IntOp.andi
    rw [BitVec.and_zero, if_neg (by decide)]
  · rw [if_neg hl, if_neg hl]
    unfold Scalar.select IntOp.andi Ideal.cmp
    by_cases hx : x1 (ix4 b 0 h l) = 0
    · simp [hx]
    · simp [hx]

/-- The reference's signal shifted one lane to the right (a zero entering at lane 0) is what reaches a lane from its
    left neighbour. -/
theorem fromLeft_apply (x1 : (⟨S64x1x512x512, .f32⟩ : BufTy).Contents (Elt Ideal)) (b : Fin 64) (h : Fin 512) (l : Fin 512) :
    val_main_v11 (F := Ideal) x1 (ix4 b (0 : Fin 1) h l) = fromLeft (fun l' => x1 (ix4 b (0 : Fin 1) h l')) l := by
  unfold val_main_v11 fromLeft
  by_cases hl : l.val = 0
  · rw [dif_pos hl,
      concatenate_pair_apply_left (t := S64x1x512x512) (s₁ := S64x1x512x1) (s₂ := S64x1x512x511) (3 : Fin 4) _ _ _
        (ix4 b (0 : Fin 1) h l) rfl (ix4 b (0 : Fin 1) h (0 : Fin 1) : S64x1x512x1.Idx)
        (fun a => match a with
          | ⟨0, _⟩ => rfl
          | ⟨1, _⟩ => rfl
          | ⟨2, _⟩ => rfl
          | ⟨3, _⟩ => hl.symm),
      val_main_v9_apply, val_main_cst_1_apply]
    exact Ideal.ofBits_zero_f32
  · have hlt : l.val - 1 < 511 := by have := l.isLt; omega
    rw [dif_neg hl,
      concatenate_pair_apply_right (t := S64x1x512x512) (s₁ := S64x1x512x1) (s₂ := S64x1x512x511) (3 : Fin 4) _ _ _
        (ix4 b (0 : Fin 1) h l) rfl rfl (ix4 b (0 : Fin 1) h (⟨l.val - 1, hlt⟩ : Fin 511) : S64x1x512x511.Idx)
        (fun a => match a with
          | ⟨0, _⟩ => fun _ => rfl
          | ⟨1, _⟩ => fun _ => rfl
          | ⟨2, _⟩ => fun _ => rfl
          | ⟨3, _⟩ => fun hne => absurd rfl hne)
        (by show l.val - 1 + 1 = l.val; omega),
      val_main_v10_apply]
    have hi : idx_main_v10 (ix4 b (0 : Fin 1) h (⟨l.val - 1, hlt⟩ : Fin 511))
        = ix4 b (0 : Fin 1) h (⟨l.val - 1, by have := l.isLt; omega⟩ : Fin 512) := by
      funext a
      match a with
      | ⟨0, _⟩ => rfl
      | ⟨1, _⟩ => rfl
      | ⟨2, _⟩ => rfl
      | ⟨3, _⟩ => rfl
    rw [hi, src_apply]

/-- The reference's signal shifted one lane to the left (a zero entering at lane 511) is what reaches a lane from its
    right neighbour. -/
theorem fromRight_apply (x1 : (⟨S64x1x512x512, .f32⟩ : BufTy).Contents (Elt Ideal)) (b : Fin 64) (h : Fin 512) (l : Fin 512) :
    val_main_v20 (F := Ideal) x1 (ix4 b (0 : Fin 1) h l) = fromRight (fun l' => x1 (ix4 b (0 : Fin 1) h l')) l := by
  unfold val_main_v20 fromRight
  by_cases hl : l.val = 511
  · rw [dif_pos hl,
      concatenate_pair_apply_right (t := S64x1x512x512) (s₁ := S64x1x512x511) (s₂ := S64x1x512x1) (3 : Fin 4) _ _ _
        (ix4 b (0 : Fin 1) h l) rfl rfl (ix4 b (0 : Fin 1) h (0 : Fin 1) : S64x1x512x1.Idx)
        (fun a => match a with
          | ⟨0, _⟩ => fun _ => rfl
          | ⟨1, _⟩ => fun _ => rfl
          | ⟨2, _⟩ => fun _ => rfl
          | ⟨3, _⟩ => fun hne => absurd rfl hne)
        (by show 0 + 511 = l.val; omega),
      val_main_v18_apply, val_main_cst_4_apply]
    exact Ideal.ofBits_zero_f32
  · have hlt : l.val < 511 := by have := l.isLt; omega
    rw [dif_neg hl,
      concatenate_pair_apply_left (t := S64x1x512x512) (s₁ := S64x1x512x511) (s₂ := S64x1x512x1) (3 : Fin 4) _ _ _
        (ix4 b (0 : Fin 1) h l) rfl (ix4 b (0 : Fin 1) h (⟨l.val, hlt⟩ : Fin 511) : S64x1x512x511.Idx)
        (fun a => match a with
          | ⟨0, _⟩ => rfl
          | ⟨1, _⟩ => rfl
          | ⟨2, _⟩ => rfl
          | ⟨3, _⟩ => rfl),
      val_main_v19_apply]
    have hi : idx_main_v19 (ix4 b (0 : Fin 1) h (⟨l.val, hlt⟩ : Fin 511))
        = ix4 b (0 : Fin 1) h (⟨l.val + 1, by omega⟩ : Fin 512) := by
      funext a
      match a with
      | ⟨0, _⟩ => rfl
      | ⟨1, _⟩ => rfl
      | ⟨2, _⟩ => rfl
      | ⟨3, _⟩ => exact Fin.ext (by show 1 + l.val = l.val + 1; omega)
    rw [hi, src_apply]

/-- The reference's modified signal at a pixel: the right neighbour's value over the lane's own over the left
    neighbour's over the signal. -/
theorem modified_apply (x1 : (⟨S64x1x512x512, .f32⟩ : BufTy).Contents (Elt Ideal)) (b : Fin 64) (h : Fin 512) (l : Fin 512) :
    val_main_v23 (F := Ideal) x1 (ix4 b (0 : Fin 1) h l) = modified (fun l' => x1 (ix4 b (0 : Fin 1) h l')) l := by
  rw [val_main_v23_apply, val_main_v22_apply, val_main_v21_apply, val_main_cst_5_apply,
    val_main_v17_apply, val_main_v16_apply, val_main_v15_apply, val_main_cst_3_apply,
    val_main_v14_apply, val_main_v13_apply, val_main_v12_apply, val_main_cst_2_apply,
    fromRight_apply, fromLeft_apply, src_apply]
  simp only [Ideal.cmpf_def, Ideal.ofBits_def]
  rw [select_une_zero, select_une_zero, select_une_zero]
  rfl

/-- The reference's weighted loss array at pixel `(b, 0, h, l)` is the loss of lane `l` of the row `(b, h)` of
    the two images. -/
theorem loss_apply (x0 x1 : (⟨S64x1x512x512, .f32⟩ : BufTy).Contents (Elt Ideal)) (b : Fin 64) (h : Fin 512) (l : Fin 512) :
    val_main_v36 (F := Ideal) x0 x1 (ix4 b (0 : Fin 1) h l)
      = loss (fun l' => x0 (ix4 b (0 : Fin 1) h l')) (fun l' => x1 (ix4 b (0 : Fin 1) h l')) l := by
  rw [val_main_v36_apply, val_main_v33_apply, val_main_v32_apply, val_main_cst_7_apply,
    val_main_v35_apply, val_main_v34_apply, val_main_cst_8_apply,
    val_main_v31_apply, val_main_v25_apply, val_main_v24_apply,
    val_main_v30_apply, val_main_v29_apply, val_main_cst_6_apply,
    val_main_v28_apply, val_main_v27_apply, val_main_v26_apply, modified_apply]
  simp only [Ideal.cmpf_def, Ideal.ofBits_def, Ideal.subf_def, Ideal.mulf_def, Ideal.addf_def, Ideal.minimumf_def]
  rw [select_une_zero]
  rfl

end Cert.MaxLoss.Ref

end
-- ==== Proof.RefMean.lean ====
/-
  The reference's result is the mean loss of the specification.

  The reference sums its weighted loss array over all four axes at once, from the zero word, and divides by the word
  of 2^24. Its loss array at a pixel is the row loss; the one sum over the image regroups, by commutativity and
  associativity alone, into the sum over the 16 groups of 2048 rows of 512 lanes.
-/
import proofs.«423925_j62251255988863_3_alg».proof.Proof.RefLoss

noncomputable section

open Idealize.ShloMosaic Idealize.ShloMosaic.ValueIdx

namespace Cert.MaxLoss.Ref

open Cert.ReferenceIdeal Cert.ReferenceIdeal.Read Cert.MaxLoss

/-- The reference's result, as a function of the two images, is their mean loss. -/
theorem mean_eq (x0 x1 : (⟨S64x1x512x512, .f32⟩ : BufTy).Contents (Elt Ideal)) :
    val_main_v38 (F := Ideal) x0 x1 = fun _ => meanLoss x0 x1 := by
  funext i
  rw [val_main_v38_apply, val_main_v37_apply]
  show Ideal.div (Ideal.ofBits .f32 0x00000000#32 + ∑ j, val_main_v36 (F := Ideal) x0 x1 j) (Ideal.ofBits .f32 0x4B800000#32)
    = meanLoss x0 x1
  unfold meanLoss
  refine congrArg (fun s => Ideal.div (Ideal.ofBits .f32 0x00000000#32 + s) (Ideal.ofBits .f32 0x4B800000#32)) ?_
  rw [sum_pixels]
  refine Finset.sum_congr rfl fun g _ => ?_
  unfold groupLoss
  refine Finset.sum_congr rfl fun r _ => Finset.sum_congr rfl fun l _ => ?_
  exact loss_apply x0 x1 _ _ l

end Cert.MaxLoss.Ref

end
-- ==== Proof.lean ====
/-
  The kernel and the reference compute the same mean loss.

  Both programs take a reconstruction and a sparse signal image (64 × 1 × 512 × 512). Along each row the signal,
  masked at lane 0, is scattered onto its two neighbours and itself with later writes winning (right neighbour's
  value over own over left neighbour's over the untouched signal); the loss at a pixel is the smaller of the squared
  error against the signal and the cubed error against the scattered signal plus a constant, weighted where the
  signal is nonzero; the result is the sum of the loss over all pixels, from the zero word, divided by the number of
  pixels (Proof/Spec.lean: `loss`, `meanLoss`).

  The reference builds the two neighbour shifts by slicing and padding with a zero column and sums all pixels at
  once. The kernel builds them by rotating a 2048-row block by one lane either way and masking the wrapped lane,
  sums each block over lanes then rows, and leaves 16 block sums for the host to add and divide. On the extended
  reals the two shifts are the same function of the row, the remaining operations are the same word for word, and
  the two totals differ only in how one finite sum is grouped, which addition's commutativity and associativity
  settle without any finiteness of the inputs. The frames of the two kernel programs are the generated ones; the
  reference's frame is its generated run with the result forgotten; the idealization rewrote nothing.
-/
import proofs.«423925_j62251255988863_3_alg».proof.Defs
import proofs.«423925_j62251255988863_3_alg».proof.Proof.Gen.Kernel
import proofs.«423925_j62251255988863_3_alg».proof.Proof.Gen.Kernel.Skeleton
import proofs.«423925_j62251255988863_3_alg».proof.Proof.Gen.Kernel.Launch
import proofs.«423925_j62251255988863_3_alg».proof.Proof.Gen.Kernel.Points
import proofs.«423925_j62251255988863_3_alg».proof.Proof.Gen.Kernel.Frame
import proofs.«423925_j62251255988863_3_alg».proof.Proof.Gen.KernelIdeal
import proofs.«423925_j62251255988863_3_alg».proof.Proof.Gen.KernelIdeal.Skeleton
import proofs.«423925_j62251255988863_3_alg».proof.Proof.Gen.KernelIdeal.Launch
import proofs.«423925_j62251255988863_3_alg».proof.Proof.Gen.KernelIdeal.Points
import proofs.«423925_j62251255988863_3_alg».proof.Proof.Gen.KernelIdeal.Frame
import proofs.«423925_j62251255988863_3_alg».proof.Proof.Gen.ReferenceIdeal
import proofs.«423925_j62251255988863_3_alg».proof.Proof.Gen.ReferenceIdeal.Run
import proofs.«423925_j62251255988863_3_alg».proof.Proof.Gen.ReferenceIdeal.Read
import proofs.«423925_j62251255988863_3_alg».proof.Proof.Gen.Pre_finite_inputs
import proofs.«423925_j62251255988863_3_alg».proof.Proof.KerArray
import proofs.«423925_j62251255988863_3_alg».proof.Proof.RefMean
import Idealize.ShloMosaic.Adequacy
import Idealize.ShloMosaic.Init

noncomputable section

namespace Cert.Proof

open Idealize.ShloMosaic Idealize.SL.Sem

/-- The word-level kernel and its idealization run, and leave their arguments as they were: the generated frames. -/
theorem frame_kernel : Cert.frame_Kernel := fun m ρ _ => Cert.Kernel.Gen.frame m ρ
theorem frame_kernelIdeal : Cert.frame_KernelIdeal := fun m ρ _ => Cert.KernelIdeal.Gen.frame m ρ

/-- The reference runs and leaves its arguments as they were: its generated run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the mean loss of the two images in their result: the kernel by its output
    array read through the host operations after the region, the reference by its run read one operation at a time. -/
theorem algebraic : Cert.algebraic_KernelIdeal_ReferenceIdeal := by
  intro m ρ m' ρ' _ hagree
  refine ⟨fun c => fun _ => Cert.MaxLoss.meanLoss (Cert.MaxLoss.Ker.recon m c) (Cert.MaxLoss.Ker.signal m c), ?_, ?_⟩
  · refine (θ_run Cert.KernelIdeal.defs _ _).mono (fun r h c => ⟨?_, ?_, ?_⟩) (Cert.KernelIdeal.Gen.run_main m ρ)
    · exact ((h c).2 Cert.KernelIdeal.main_v6 (Pipeline.mem_restRefs_of Cert.KernelIdeal.main_v6 (by decide) (by decide))).trans
        (Cert.MaxLoss.Ker.result_eq m c)
    · exact ((h c).2 Cert.KernelIdeal.main_arg0 (Pipeline.mem_restRefs_of Cert.KernelIdeal.main_arg0 (by decide) (by decide))).trans
        (Cert.KernelIdeal.Gen.W_main_arg0 m (Cert.KernelIdeal.Gen.dats m) c)
    · exact ((h c).2 Cert.KernelIdeal.main_arg1 (Pipeline.mem_restRefs_of Cert.KernelIdeal.main_arg1 (by decide) (by decide))).trans
        (Cert.KernelIdeal.Gen.W_main_arg1 m (Cert.KernelIdeal.Gen.dats m) c)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v38_eq, Cert.MaxLoss.Ref.mean_eq, (hagree c).1, (hagree c).2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
